-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x128 .f32) (main_arg1 : FVec F S40x128 .f32) (main_arg2 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40x128 .f32 := Host.absf main_arg1
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x128 : Shape := ⟨2, ![100000, 128]⟩
abbrev S40x128 : Shape := ⟨2, ![40, 128]⟩
abbrev S40 : Shape := ⟨1, ![40]⟩
abbrev S128x40 : Shape := ⟨2, ![128, 40]⟩
abbrev S1x40 : Shape := ⟨2, ![1, 40]⟩
abbrev S100000x40 : Shape := ⟨2, ![100000, 40]⟩
abbrev S2000x128 : Shape := ⟨2, ![2000, 128]⟩
abbrev S10000x40 : Shape := ⟨2, ![10000, 40]⟩
abbrev S2000x40 : Shape := ⟨2, ![2000, 40]⟩

abbrev nBuf : Space → Nat
  | .hbm => 6
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S128x40, .f32⟩
  | .hbm, ⟨4, _⟩ => ⟨S1x40, .f32⟩
  | .hbm, ⟨5, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x40, .f32⟩
  | .local _ .vmem, ⟨11, _⟩ => ⟨S1x40, .f32⟩
  | .local _ .vmem, ⟨12, _⟩ => ⟨S10000x40, .f32⟩
  | .local _ .vmem, ⟨13, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c5_i32 : BitVec 32 := 5#32
  let v0 : BitVec 32 := Scalar.muli arg0 c5_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c5_i32 : BitVec 32 := 5#32
  let v0 : BitVec 32 := Scalar.muli arg0 c5_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli arg0 c5_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli arg0 c5_i32
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S40x128_S128x40_1_0 : S40x128.Transposes [1, 0] S128x40
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S10000x40_S2000x40_0_0 : ∀ a, (![0, 0] : Fin 2 → Nat) a + S2000x40.size a ≤ S10000x40.size a
  h_S2000x40 : 0 < S2000x40.numel
  inb_S10000x40_S2000x40_2000_0 : ∀ a, (![2000, 0] : Fin 2 → Nat) a + S2000x40.size a ≤ S10000x40.size a
  inb_S10000x40_S2000x40_4000_0 : ∀ a, (![4000, 0] : Fin 2 → Nat) a + S2000x40.size a ≤ S10000x40.size a
  inb_S10000x40_S2000x40_6000_0 : ∀ a, (![6000, 0] : Fin 2 → Nat) a + S2000x40.size a ≤ S10000x40.size a
  inb_S10000x40_S2000x40_8000_0 : ∀ a, (![8000, 0] : Fin 2 → Nat) a + S2000x40.size a ≤ S10000x40.size a
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x40.size a ≤ S128x40.size a
  hwx0_5 : ∀ i : grid0.Coords, EltTy.bits .f32 = 32 ∨ (Rect.block (s := S128x40) S128x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x40.size a ≤ S100000x40.size a
  hwx0_7 : ∀ i : grid0.Coords, EltTy.bits .f32 = 32 ∨ (Rect.block (s := S100000x40) S10000x40.size (cc0_transform_7 i) (hinb0_7 i)).WholeWords (EltTy.packing .f32)

variable [Facts₀]

def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S10000x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S40x128 : Shape := ⟨2, ![40, 128]⟩
abbrev S40 : Shape := ⟨1, ![40]⟩
abbrev S128x40 : Shape := ⟨2, ![128, 40]⟩
abbrev S100000x40 : Shape := ⟨2, ![100000, 40]⟩
abbrev S1x40 : Shape := ⟨2, ![1, 40]⟩

abbrev nBuf : Space → Nat
  | .hbm => 8
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S128x40, .f32⟩
  | .hbm, ⟨4, _⟩ => ⟨S100000x40, .f32⟩
  | .hbm, ⟨5, _⟩ => ⟨S1x40, .f32⟩
  | .hbm, ⟨6, _⟩ => ⟨S100000x40, .f32⟩
  | .hbm, ⟨7, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x40_S100000x40_1_0_0_1_n_n_wf : DotDims.WF S100000x128 S128x40 S100000x40 [1] [0] [0] [1] [] []

variable [Facts₀]

def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelBase.lean ====
import proofs.«118289_g25323127177384_cont_9to1_2235_8_alg».proof.Proof.Gen.Kernel.Launch
import proofs.«118289_g25323127177384_cont_9to1_2235_8_alg».proof.Proof.Gen.Kernel.Skeleton
import proofs.«118289_g25323127177384_cont_9to1_2235_8_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-!
  The program up to its one kernel region, and what the region finds.

  @main first writes the transposed weight matrix (128 × 40) and the bias as a 1 × 40 row, then enters the region.
  `V` is every buffer's contents at that moment; the three argument arrays are still as launched. The row matrix
  `x` (100000 × 128) is handed to the kernel through FIVE input windows, window `j` reading row block `5·i + j` at
  grid point `i`; the windows' blocks read off `V` are `iblk`. An input window's staging buffer holds its block at
  every point, whether it was fetched there (the five row windows: always) or only at the first point (the weight
  and bias windows, whose block never moves).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes the row matrix. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Neither host operation writes the weight matrix. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Neither host operation writes the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.KernelBody.lean ====
import proofs.«118289_g25323127177384_cont_9to1_2235_8_alg».proof.Proof.KernelBase

/-!
  The kernel body at one grid point, and the proof data of the pipeline.

  The body makes five products: for `j = 0 … 4` it loads row block `j` (2000 × 128), the transposed weights
  (128 × 40) and the bias row (1 × 40), multiplies the first two into a zero accumulator, adds the bias row
  broadcast down the 2000 rows, and stores the result into rows `2000·j … 2000·j + 1999` of the 10000 × 40 output
  block. The five stores tile the block, so after the body the output staging buffer is one function `outBlock` of
  the seven input blocks: the canon of the five stores. The input buffers are left as they were.

  The proof data: every array as the region finds it; after the body each input buffer at its block, the output
  buffer at `outBlock` of the blocks; the region invariant is the untouched scoped rest; nothing is owed. The row
  matrix is one array behind five input windows, so its full share is dealt to them in five pieces (a half, a
  quarter, an eighth and two sixteenths).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rX : Rect S2000x128 := Rect.unit (s := S2000x128) ![0, 0] S2000x128.size inb_S2000x128_S2000x128_0_0
abbrev rW : Rect S128x40 := Rect.unit (s := S128x40) ![0, 0] S128x40.size inb_S128x40_S128x40_0_0
abbrev rB : Rect S1x40 := Rect.unit (s := S1x40) ![0, 0] S1x40.size inb_S1x40_S1x40_0_0
abbrev rO0 : Rect S10000x40 := Rect.unit (s := S10000x40) ![0, 0] S2000x40.size inb_S10000x40_S2000x40_0_0
abbrev rO1 : Rect S10000x40 := Rect.unit (s := S10000x40) ![2000, 0] S2000x40.size inb_S10000x40_S2000x40_2000_0
abbrev rO2 : Rect S10000x40 := Rect.unit (s := S10000x40) ![4000, 0] S2000x40.size inb_S10000x40_S2000x40_4000_0
abbrev rO3 : Rect S10000x40 := Rect.unit (s := S10000x40) ![6000, 0] S2000x40.size inb_S10000x40_S2000x40_6000_0
abbrev rO4 : Rect S10000x40 := Rect.unit (s := S10000x40) ![8000, 0] S2000x40.size inb_S10000x40_S2000x40_8000_0

/-! ## What the body leaves in the output window's buffer -/

/-- The output staging buffer after the body, from the seven input blocks: its five stores as pieces, last first. -/
def outBlock (x0 x1 x2 x3 x4 : Vec F S2000x128 .f32) (xw : Vec F S128x40 .f32) (xb : Vec F S1x40 .f32) : Vec F S10000x40 .f32 :=
  View.canon [⟨rO4, k0_pay2 (View.ld x4 rX) (View.ld xw rW) (View.ld xb rB)⟩,
    ⟨rO3, k0_pay1 (View.ld x3 rX) (View.ld xw rW) (View.ld xb rB)⟩,
    ⟨rO2, k0_pay5 (View.ld x2 rX) (View.ld xw rW) (View.ld xb rB)⟩,
    ⟨rO1, k0_pay4 (View.ld x1 rX) (View.ld xw rW) (View.ld xb rB)⟩,
    ⟨rO0, k0_pay3 (View.ld x0 rX) (View.ld xw rW) (View.ld xb rB)⟩]

/-- The five stores tile the buffer, so they cover it. -/
theorem cover_out (p0 p1 p2 p3 p4 : Vec F S2000x40 .f32) (y : S10000x40.Idx) :
    ∃ pc ∈ ([⟨rO4, p4⟩, ⟨rO3, p3⟩, ⟨rO2, p2⟩, ⟨rO1, p1⟩, ⟨rO0, p0⟩] : List (View.Piece (Elt F) S10000x40 .f32)), y ∈ pc.1.set :=
  View.cover_of_tiled [⟨rO4, p4⟩, ⟨rO3, p3⟩, ⟨rO2, p2⟩, ⟨rO1, p1⟩, ⟨rO0, p0⟩] S2000x40.size (by rfl) y

/-! ## The body's triple -/

set_option maxHeartbeats 1000000 in
/-- The kernel body on whole staging memrefs, the inputs' at read contents and the output's at anything, runs to the
    continuation holding the inputs' as they were and the output's at `outBlock` of the inputs'. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S10000x40 .f32) (harg8 : arg8.IsWhole)
    (x0 x1 x2 x3 x4 : Vec F S2000x128 .f32) (xw : Vec F S128x40 .f32) (xb : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xw ∗ owns (c : Thread nD τ) arg7 fullShare xb ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xw ∗ owns (c : Thread nD τ) arg7 fullShare xb ∗ owns (c : Thread nD τ) arg8 fullShare (outBlock x0 x1 x2 x3 x4 xw xb)) -∗ K ⟨⟩))
      ⊢ wp frame (wpE (defs₀ (F := F)) Variants.none c none) E (cc0__linear_block i arg1 harg1 arg2 harg2 arg3 harg3 arg4 harg4 arg5 harg5 arg6 harg6 arg7 harg7 arg8 harg8) K := by
  simp only [cc0__linear_block_eq_skeleton]; unfold cc0__linear_block_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _ _ _ _ _)

/-! ## The pipeline's proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | ⟨5, _⟩ => fullShare
    | ⟨6, _⟩ => fullShare
    | ⟨7, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

/-- Each input's current staging buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelSplit.lean ====
import proofs.«118289_g25323127177384_cont_9to1_2235_8_alg».proof.Proof.KernelBody

/-!
  Dealing the arrays to the windows at the region's entry. Four buffers stand behind the eight windows: the row
  matrix (windows 0 to 4), the transposed weights (5), the bias row (6) and the result (7). Each is held whole at the
  full share; the row matrix's share is halved four times, giving the five windows on it a half, a quarter, an eighth
  and two sixteenths of the same contents.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's share of its array: the row matrix's five pieces, and the full share of the other three arrays. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right.left := rfl
theorem share_3 (c : Dev nD) : (dats m 0 c).share 3 = fullShare.right.right.right.left := rfl
theorem share_4 (c : Dev nD) : (dats m 0 c).share 4 = fullShare.right.right.right.right := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The four buffers behind the arrays, each whole at the full share, are the eight windows' arrays at their shares. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have hL : bigSep (Finset.univ.image (Pipeline.arrRef spec0)) (fun b => (((c.tc : Thread nD τ).loc b) ↦{fullShare} V m c b : sProp 𝕄))
      = iprop((((c.tc : Thread nD τ).loc main_arg0) ↦{fullShare} V m c main_arg0) ∗ (((c.tc : Thread nD τ).loc main_v0) ↦{fullShare} V m c main_v0)
          ∗ (((c.tc : Thread nD τ).loc main_v1) ↦{fullShare} V m c main_v1) ∗ (((c.tc : Thread nD τ).loc main_v2) ↦{fullShare} V m c main_v2)) :=
    bigSep_eq_bigSepL_of_eq [main_arg0, main_v0, main_v1, main_v2] (by decide) (by decide) _
  rw [hL, bigSep_W0]
  rw [share_0, share_1, share_2, share_3, share_4, share_5, share_6, share_7]
  simp only [View.set_whole]
  have h5 : ((((c.tc : Thread nD τ).loc main_arg0) ↦{fullShare} V m c main_arg0 : sProp 𝕄))
      ⊢ iprop((((c.tc : Thread nD τ).loc main_arg0) ↦{fullShare.left} V m c main_arg0)
          ∗ (((c.tc : Thread nD τ).loc main_arg0) ↦{fullShare.right.left} V m c main_arg0)
          ∗ (((c.tc : Thread nD τ).loc main_arg0) ↦{fullShare.right.right.left} V m c main_arg0)
          ∗ (((c.tc : Thread nD τ).loc main_arg0) ↦{fullShare.right.right.right.left} V m c main_arg0)
          ∗ (((c.tc : Thread nD τ).loc main_arg0) ↦{fullShare.right.right.right.right} V m c main_arg0)) :=
    (pointsTo_share (PosShare.mem_left_op_right fullShare)).1.trans (sep_mono .rfl
      ((pointsTo_share (PosShare.mem_left_op_right fullShare.right)).1.trans (sep_mono .rfl
        ((pointsTo_share (PosShare.mem_left_op_right fullShare.right.right)).1.trans (sep_mono .rfl
          (pointsTo_share (PosShare.mem_left_op_right fullShare.right.right.right)).1)))))
  refine (sep_mono h5 .rfl).trans ?_
  iintro ⟨⟨H0, H1, H2, H3, H4⟩, Hw, Hb, Ho⟩
  isplitl [H0]; · iexact H0
  isplitl [H1]; · iexact H1
  isplitl [H2]; · iexact H2
  isplitl [H3]; · iexact H3
  isplitl [H4]; · iexact H4
  isplitl [Hw]; · iexact Hw
  isplitl [Hb]; · iexact Hb
  iexact Ho

end Cert.Kernel.Hand

end
-- ==== Proof.KernelRun.lean ====
import proofs.«118289_g25323127177384_cont_9to1_2235_8_alg».proof.Proof.KernelSplit

/-!
  The run of the whole program, by the launch rule for a kernel whose input windows share an array: every weakly fair
  execution of @main ends, nothing faults, each array of the pipeline ends at what the proof data compute (an input
  array as the region found it, the result array overwritten block by block by what the body left), and every other
  buffer as the region found it. From it the frame claim: the three argument arrays end as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant is the scoped rest, at every point. -/
theorem Φ_eq (c : Dev nD) (t : Fin (cfg0.N + 1)) : (dats m 0 c).Φ t
    = Pipeline.scopedRest (Ix := Unit) (Name := ℕ) (U := UR sig nD τ) (Lvl := ℕ) (Val := Elt F) spec0 c := by
  dsimp only [dats]

set_option backward.isDefEq.respectTransparency.types false in
/-- The run: from any memory with zero counters every weakly fair execution of @main on the TensorCores terminates, and
    every final state has every array of the pipeline at the proof data's final contents and every other unscoped buffer
    as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => (show Pipeline.FramePost cfgs (dats m) 0 (V m) (⟨⟩, s) from fun c => ⟨(h c).1, (h c).2⟩))

/-- After the run the row matrix is as launched: an input window stages it and nothing writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run the weight matrix is as launched: no window stages it and no host operation writes it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 rfl (by decide))).trans (V_main_arg1 m c)

/-- After the run the bias is as launched: no window stages it and no host operation writes it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 rfl (by decide))).trans (V_main_arg2 m c)

/-- The run with the result array named and the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 7, kept_main_arg0 m r h c, kept_main_arg1 m r h c, kept_main_arg2 m r h c⟩)
    (run_main m ρ)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_blocks m ρ)

end Cert.Kernel.Hand

end
-- ==== Proof.KernelIdealBase.lean ====
import proofs.«118289_g25323127177384_cont_9to1_2235_8_alg».proof.Proof.Gen.KernelIdeal.Launch
import proofs.«118289_g25323127177384_cont_9to1_2235_8_alg».proof.Proof.Gen.KernelIdeal.Skeleton
import proofs.«118289_g25323127177384_cont_9to1_2235_8_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-!
  The program up to its one kernel region, and what the region finds.

  @main first writes the transposed weight matrix (128 × 40) and the bias as a 1 × 40 row, then enters the region.
  `V` is every buffer's contents at that moment; the three argument arrays are still as launched. The row matrix
  `x` (100000 × 128) is handed to the kernel through FIVE input windows, window `j` reading row block `5·i + j` at
  grid point `i`; the windows' blocks read off `V` are `iblk`. An input window's staging buffer holds its block at
  every point, whether it was fetched there (the five row windows: always) or only at the first point (the weight
  and bias windows, whose block never moves).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes the row matrix. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Neither host operation writes the weight matrix. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Neither host operation writes the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KernelIdealBody.lean ====
import proofs.«118289_g25323127177384_cont_9to1_2235_8_alg».proof.Proof.KernelIdealBase

/-!
  The kernel body at one grid point, and the proof data of the pipeline.

  The body makes five products: for `j = 0 … 4` it loads row block `j` (2000 × 128), the transposed weights
  (128 × 40) and the bias row (1 × 40), multiplies the first two into a zero accumulator, adds the bias row
  broadcast down the 2000 rows, and stores the result into rows `2000·j … 2000·j + 1999` of the 10000 × 40 output
  block. The five stores tile the block, so after the body the output staging buffer is one function `outBlock` of
  the seven input blocks: the canon of the five stores. The input buffers are left as they were.

  The proof data: every array as the region finds it; after the body each input buffer at its block, the output
  buffer at `outBlock` of the blocks; the region invariant is the untouched scoped rest; nothing is owed. The row
  matrix is one array behind five input windows, so its full share is dealt to them in five pieces (a half, a
  quarter, an eighth and two sixteenths).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rX : Rect S2000x128 := Rect.unit (s := S2000x128) ![0, 0] S2000x128.size inb_S2000x128_S2000x128_0_0
abbrev rW : Rect S128x40 := Rect.unit (s := S128x40) ![0, 0] S128x40.size inb_S128x40_S128x40_0_0
abbrev rB : Rect S1x40 := Rect.unit (s := S1x40) ![0, 0] S1x40.size inb_S1x40_S1x40_0_0
abbrev rO0 : Rect S10000x40 := Rect.unit (s := S10000x40) ![0, 0] S2000x40.size inb_S10000x40_S2000x40_0_0
abbrev rO1 : Rect S10000x40 := Rect.unit (s := S10000x40) ![2000, 0] S2000x40.size inb_S10000x40_S2000x40_2000_0
abbrev rO2 : Rect S10000x40 := Rect.unit (s := S10000x40) ![4000, 0] S2000x40.size inb_S10000x40_S2000x40_4000_0
abbrev rO3 : Rect S10000x40 := Rect.unit (s := S10000x40) ![6000, 0] S2000x40.size inb_S10000x40_S2000x40_6000_0
abbrev rO4 : Rect S10000x40 := Rect.unit (s := S10000x40) ![8000, 0] S2000x40.size inb_S10000x40_S2000x40_8000_0

/-! ## What the body leaves in the output window's buffer -/

/-- The output staging buffer after the body, from the seven input blocks: its five stores as pieces, last first. -/
def outBlock (x0 x1 x2 x3 x4 : Vec F S2000x128 .f32) (xw : Vec F S128x40 .f32) (xb : Vec F S1x40 .f32) : Vec F S10000x40 .f32 :=
  View.canon [⟨rO4, k0_pay2 (View.ld x4 rX) (View.ld xw rW) (View.ld xb rB)⟩,
    ⟨rO3, k0_pay1 (View.ld x3 rX) (View.ld xw rW) (View.ld xb rB)⟩,
    ⟨rO2, k0_pay5 (View.ld x2 rX) (View.ld xw rW) (View.ld xb rB)⟩,
    ⟨rO1, k0_pay4 (View.ld x1 rX) (View.ld xw rW) (View.ld xb rB)⟩,
    ⟨rO0, k0_pay3 (View.ld x0 rX) (View.ld xw rW) (View.ld xb rB)⟩]

/-- The five stores tile the buffer, so they cover it. -/
theorem cover_out (p0 p1 p2 p3 p4 : Vec F S2000x40 .f32) (y : S10000x40.Idx) :
    ∃ pc ∈ ([⟨rO4, p4⟩, ⟨rO3, p3⟩, ⟨rO2, p2⟩, ⟨rO1, p1⟩, ⟨rO0, p0⟩] : List (View.Piece (Elt F) S10000x40 .f32)), y ∈ pc.1.set :=
  View.cover_of_tiled [⟨rO4, p4⟩, ⟨rO3, p3⟩, ⟨rO2, p2⟩, ⟨rO1, p1⟩, ⟨rO0, p0⟩] S2000x40.size (by rfl) y

/-! ## The body's triple -/

set_option maxHeartbeats 1000000 in
/-- The kernel body on whole staging memrefs, the inputs' at read contents and the output's at anything, runs to the
    continuation holding the inputs' as they were and the output's at `outBlock` of the inputs'. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S10000x40 .f32) (harg8 : arg8.IsWhole)
    (x0 x1 x2 x3 x4 : Vec F S2000x128 .f32) (xw : Vec F S128x40 .f32) (xb : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xw ∗ owns (c : Thread nD τ) arg7 fullShare xb ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xw ∗ owns (c : Thread nD τ) arg7 fullShare xb ∗ owns (c : Thread nD τ) arg8 fullShare (outBlock x0 x1 x2 x3 x4 xw xb)) -∗ K ⟨⟩))
      ⊢ wp frame (wpE (defs₀ (F := F)) Variants.none c none) E (cc0__linear_block i arg1 harg1 arg2 harg2 arg3 harg3 arg4 harg4 arg5 harg5 arg6 harg6 arg7 harg7 arg8 harg8) K := by
  simp only [cc0__linear_block_eq_skeleton]; unfold cc0__linear_block_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _ _ _ _ _)

/-! ## The pipeline's proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | ⟨5, _⟩ => fullShare
    | ⟨6, _⟩ => fullShare
    | ⟨7, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

/-- Each input's current staging buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealSplit.lean ====
import proofs.«118289_g25323127177384_cont_9to1_2235_8_alg».proof.Proof.KernelIdealBody

/-!
  Dealing the arrays to the windows at the region's entry. Four buffers stand behind the eight windows: the row
  matrix (windows 0 to 4), the transposed weights (5), the bias row (6) and the result (7). Each is held whole at the
  full share; the row matrix's share is halved four times, giving the five windows on it a half, a quarter, an eighth
  and two sixteenths of the same contents.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's share of its array: the row matrix's five pieces, and the full share of the other three arrays. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right.left := rfl
theorem share_3 (c : Dev nD) : (dats m 0 c).share 3 = fullShare.right.right.right.left := rfl
theorem share_4 (c : Dev nD) : (dats m 0 c).share 4 = fullShare.right.right.right.right := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The four buffers behind the arrays, each whole at the full share, are the eight windows' arrays at their shares. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have hL : bigSep (Finset.univ.image (Pipeline.arrRef spec0)) (fun b => (((c.tc : Thread nD τ).loc b) ↦{fullShare} V m c b : sProp 𝕄))
      = iprop((((c.tc : Thread nD τ).loc main_arg0) ↦{fullShare} V m c main_arg0) ∗ (((c.tc : Thread nD τ).loc main_v0) ↦{fullShare} V m c main_v0)
          ∗ (((c.tc : Thread nD τ).loc main_v1) ↦{fullShare} V m c main_v1) ∗ (((c.tc : Thread nD τ).loc main_v2) ↦{fullShare} V m c main_v2)) :=
    bigSep_eq_bigSepL_of_eq [main_arg0, main_v0, main_v1, main_v2] (by decide) (by decide) _
  rw [hL, bigSep_W0]
  rw [share_0, share_1, share_2, share_3, share_4, share_5, share_6, share_7]
  simp only [View.set_whole]
  have h5 : ((((c.tc : Thread nD τ).loc main_arg0) ↦{fullShare} V m c main_arg0 : sProp 𝕄))
      ⊢ iprop((((c.tc : Thread nD τ).loc main_arg0) ↦{fullShare.left} V m c main_arg0)
          ∗ (((c.tc : Thread nD τ).loc main_arg0) ↦{fullShare.right.left} V m c main_arg0)
          ∗ (((c.tc : Thread nD τ).loc main_arg0) ↦{fullShare.right.right.left} V m c main_arg0)
          ∗ (((c.tc : Thread nD τ).loc main_arg0) ↦{fullShare.right.right.right.left} V m c main_arg0)
          ∗ (((c.tc : Thread nD τ).loc main_arg0) ↦{fullShare.right.right.right.right} V m c main_arg0)) :=
    (pointsTo_share (PosShare.mem_left_op_right fullShare)).1.trans (sep_mono .rfl
      ((pointsTo_share (PosShare.mem_left_op_right fullShare.right)).1.trans (sep_mono .rfl
        ((pointsTo_share (PosShare.mem_left_op_right fullShare.right.right)).1.trans (sep_mono .rfl
          (pointsTo_share (PosShare.mem_left_op_right fullShare.right.right.right)).1)))))
  refine (sep_mono h5 .rfl).trans ?_
  iintro ⟨⟨H0, H1, H2, H3, H4⟩, Hw, Hb, Ho⟩
  isplitl [H0]; · iexact H0
  isplitl [H1]; · iexact H1
  isplitl [H2]; · iexact H2
  isplitl [H3]; · iexact H3
  isplitl [H4]; · iexact H4
  isplitl [Hw]; · iexact Hw
  isplitl [Hb]; · iexact Hb
  iexact Ho

end Cert.KernelIdeal.Hand

end
-- ==== Proof.KernelIdealRun.lean ====
import proofs.«118289_g25323127177384_cont_9to1_2235_8_alg».proof.Proof.KernelIdealSplit

/-!
  The run of the whole program, by the launch rule for a kernel whose input windows share an array: every weakly fair
  execution of @main ends, nothing faults, each array of the pipeline ends at what the proof data compute (an input
  array as the region found it, the result array overwritten block by block by what the body left), and every other
  buffer as the region found it. From it the frame claim: the three argument arrays end as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant is the scoped rest, at every point. -/
theorem Φ_eq (c : Dev nD) (t : Fin (cfg0.N + 1)) : (dats m 0 c).Φ t
    = Pipeline.scopedRest (Ix := Unit) (Name := ℕ) (U := UR sig nD τ) (Lvl := ℕ) (Val := Elt F) spec0 c := by
  dsimp only [dats]

set_option backward.isDefEq.respectTransparency.types false in
/-- The run: from any memory with zero counters every weakly fair execution of @main on the TensorCores terminates, and
    every final state has every array of the pipeline at the proof data's final contents and every other unscoped buffer
    as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => (show Pipeline.FramePost cfgs (dats m) 0 (V m) (⟨⟩, s) from fun c => ⟨(h c).1, (h c).2⟩))

/-- After the run the row matrix is as launched: an input window stages it and nothing writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run the weight matrix is as launched: no window stages it and no host operation writes it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 rfl (by decide))).trans (V_main_arg1 m c)

/-- After the run the bias is as launched: no window stages it and no host operation writes it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 rfl (by decide))).trans (V_main_arg2 m c)

/-- The run with the result array named and the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 7, kept_main_arg0 m r h c, kept_main_arg1 m r h c, kept_main_arg2 m r h c⟩)
    (run_main m ρ)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_blocks m ρ)

end Cert.KernelIdeal.Hand

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Spec.lean ====
import Idealize.ShloMosaic.PureOps.Ideal
import Idealize.ShloMosaic.Lib.ValueIdx

/-!
  The linear head, as one function of its three arguments over the extended reals: for a row matrix `x`
  (100000 × 128), a weight matrix `W` (40 × 128) and a bias `b` (40), the entry of the result at row `r` and
  column `c` is `Σ_{k < 128} x(r, k) · W(c, k) + b(c)`.
-/

open scoped BigOperators

noncomputable section

namespace Cert.Spec

open Idealize.ShloMosaic Idealize.ShloMosaic.ValueIdx

abbrev SX : Shape := ⟨2, ![100000, 128]⟩
abbrev SW : Shape := ⟨2, ![40, 128]⟩
abbrev SB : Shape := ⟨1, ![40]⟩
abbrev SO : Shape := ⟨2, ![100000, 40]⟩

/-- Entry (r, c) of `x · Wᵀ + b`. -/
def entry (x : FVec Ideal SX .f32) (W : FVec Ideal SW .f32) (b : FVec Ideal SB .f32) (r : Fin 100000) (c : Fin 40) : EReal :=
  (∑ k : Fin 128, x (ix2 r k) * W (ix2 c k)) + b (ix1 c)

/-- `x · Wᵀ + b`, index by index. -/
def linear (x : FVec Ideal SX .f32) (W : FVec Ideal SW .f32) (b : FVec Ideal SB .f32) : FVec Ideal SO .f32 :=
  fun i => entry x W b ⟨(i 0).val, (i 0).isLt⟩ ⟨(i 1).val, (i 1).isLt⟩

theorem linear_ix2 (x : FVec Ideal SX .f32) (W : FVec Ideal SW .f32) (b : FVec Ideal SB .f32) (r : Fin 100000) (c : Fin 40) :
    linear x W b (ix2 r c) = entry x W b r c := rfl

end Cert.Spec

end
-- ==== Proof.KernelIdealValue.lean ====
import proofs.«118289_g25323127177384_cont_9to1_2235_8_alg».proof.Proof.KernelIdealRun
import proofs.«118289_g25323127177384_cont_9to1_2235_8_alg».proof.Proof.LibPlainDot
import proofs.«118289_g25323127177384_cont_9to1_2235_8_alg».proof.Proof.Spec
import Idealize.ShloMosaic.Lib.Pipeline.Value
import Idealize.ShloMosaic.Lib.ValueIdx
import Idealize.ShloMosaic.PureOps.Ideal.Laws
import Idealize.ShloMosaic.Lib.StableHlo.Run

/-!
  What the kernel's result array holds after the run, over the extended reals: the linear head of the arguments.

  One product of the body, read at (p, q): the matrix product into a zero accumulator is the sum over k of
  x(p, k) · w(k, q), and the bias row broadcast down the rows adds b(0, q). At grid point `t` window `j` (j < 5)
  holds rows `2000·(5t + j) …` of the row matrix, the weight window holds the transposed weights (so w(k, q) = W(q, k)),
  the bias window the bias as a row (b(0, q) = B(q)); the body's store `j` goes to rows `2000·j …` of the output block,
  which is rows `10000·t …` of the result. So every piece the body stores is the block of ONE function of the result's
  index, the linear head; the ten blocks tile the result array, so the array ends at that function.
-/

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-! ## One product of the body at an entry -/

/-- A product of a row block with the weights plus the bias row, at (p, q). -/
theorem pay_apply (x : Vec Ideal S2000x128 .f32) (w : Vec Ideal S128x40 .f32) (b : Vec Ideal S1x40 .f32) (p : Fin 2000) (q : Fin 40) :
    k0_pay3 (F := Ideal) x w b (ix2 p q) = (∑ k : Fin 128, x (ix2 p k) * w (ix2 k q)) + b (ix2 (0 : Fin 1) q) := by
  unfold k0_pay3
  rw [shapeCast_self, shapeCast_self]
  show FloatOps.addf (FloatOps.matmul dot_S2000x128_S128x40_S2000x40_1_0_0_1_n_n none x w (constant (F := Ideal) S2000x40 .f32 0x00000000#32) (ix2 p q))
      (broadcastTo S2000x40 b broadcasts_S1x40_S2000x40 (ix2 p q)) = _
  rw [Ideal.addf_def, Cert.Lib.PlainDot.matmul_zero_apply dot_S2000x128_S128x40_S2000x40_1_0_0_1_n_n rfl rfl rfl rfl rfl rfl none x w p q,
    broadcastTo_apply b broadcasts_S1x40_S2000x40 (ix2 p q) (ix2 (0 : Fin 1) q) (fun a => match a with
      | ⟨0, _⟩ => by show 0 = if (1 : Nat) = 1 then 0 else _; rw [if_pos rfl]
      | ⟨1, _⟩ => by show q.val = if (40 : Nat) = 1 then 0 else q.val; rw [if_neg (by decide)])]

/-- The five products of the body are one function of their three operands. -/
theorem pay1_eq (x : Vec Ideal S2000x128 .f32) (w : Vec Ideal S128x40 .f32) (b : Vec Ideal S1x40 .f32) :
    k0_pay1 (F := Ideal) x w b = k0_pay3 (F := Ideal) x w b := rfl
theorem pay2_eq (x : Vec Ideal S2000x128 .f32) (w : Vec Ideal S128x40 .f32) (b : Vec Ideal S1x40 .f32) :
    k0_pay2 (F := Ideal) x w b = k0_pay3 (F := Ideal) x w b := rfl
theorem pay4_eq (x : Vec Ideal S2000x128 .f32) (w : Vec Ideal S128x40 .f32) (b : Vec Ideal S1x40 .f32) :
    k0_pay4 (F := Ideal) x w b = k0_pay3 (F := Ideal) x w b := rfl
theorem pay5_eq (x : Vec Ideal S2000x128 .f32) (w : Vec Ideal S128x40 .f32) (b : Vec Ideal S1x40 .f32) :
    k0_pay5 (F := Ideal) x w b = k0_pay3 (F := Ideal) x w b := rfl

/-- If a row block holds rows `R …` of `X`, the weight block the transpose of `Wm` and the bias block `B` as a row, the
    product at (p, q) is the linear head's entry at row `R + p`, column `q`. -/
theorem pay_entry (X : FVec Ideal Cert.Spec.SX .f32) (Wm : FVec Ideal Cert.Spec.SW .f32) (B : FVec Ideal Cert.Spec.SB .f32)
    (x : Vec Ideal S2000x128 .f32) (w : Vec Ideal S128x40 .f32) (b : Vec Ideal S1x40 .f32)
    (R : Nat) (hR : R + 2000 ≤ 100000)
    (hx : ∀ (p : Fin 2000) (k : Fin 128), x (ix2 p k) = X (ix2 (⟨R + p.val, by omega⟩ : Fin 100000) k))
    (hw : ∀ (k : Fin 128) (q : Fin 40), w (ix2 k q) = Wm (ix2 q k))
    (hb : ∀ q : Fin 40, b (ix2 (0 : Fin 1) q) = B (ix1 q))
    (p : Fin 2000) (q : Fin 40) :
    k0_pay3 (F := Ideal) x w b (ix2 p q) = Cert.Spec.entry X Wm B (⟨R + p.val, by omega⟩ : Fin 100000) q := by
  rw [pay_apply]
  unfold Cert.Spec.entry
  simp only [hx, hw, hb]

/-! ## The host operations' results, as the region finds them -/

theorem V_main_v0 (c : Dev nD) : (V m c main_v0 : S128x40.Idx → EReal)
    = transpose S128x40 [1, 0] (m ((c : Thread nD τ).loc main_arg1)) transposes_S40x128_S128x40_1_0 := by
  dsimp only [V, hostOps0]; after_results

theorem V_main_v1 (c : Dev nD) : (V m c main_v1 : S1x40.Idx → EReal)
    = shapeCast S1x40 (m ((c : Thread nD τ).loc main_arg2)) shapeCasts_S40_S1x40 := by
  dsimp only [V, hostOps0]; after_results; rfl

/-! ## The windows' block indices over the grid -/

/-- Row window `j` is at row block `5·t + j`, the weight and bias windows never move, the output window is at block `t`. -/
theorem idx_facts : ∀ t : Fin cfg0.N,
    win0_0.index t (0 : Fin 2) = 5 * t.val + 0 ∧ win0_0.index t (1 : Fin 2) = 0
    ∧ win0_1.index t (0 : Fin 2) = 5 * t.val + 1 ∧ win0_1.index t (1 : Fin 2) = 0
    ∧ win0_2.index t (0 : Fin 2) = 5 * t.val + 2 ∧ win0_2.index t (1 : Fin 2) = 0
    ∧ win0_3.index t (0 : Fin 2) = 5 * t.val + 3 ∧ win0_3.index t (1 : Fin 2) = 0
    ∧ win0_4.index t (0 : Fin 2) = 5 * t.val + 4 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 10 := by
  have h := t.isLt
  have e : cfg0.N = 10 := N_0
  omega

/-! ## The input blocks, entry by entry -/

/-- Row window 0's block at point `t` holds rows `2000·(5t + 0) …` of the row matrix. -/
theorem xblk0 (c : Dev nD) (t : Fin cfg0.N) (p : Fin 2000) (k : Fin 128) :
    (iblk m c 0 t : Vec Ideal S2000x128 .f32) (ix2 p k)
      = (m ((c : Thread nD τ).loc main_arg0) : FVec Ideal Cert.Spec.SX .f32)
          (ix2 (⟨2000 * (5 * t.val + 0) + p.val, by have := t_lt t; have := p.isLt; omega⟩ : Fin 100000) k) := by
  obtain ⟨e00, e01, e10, e11, e20, e21, e30, e31, e40, e41, e50, e51, e60, e61, e70, e71⟩ := idx_facts t
  unfold iblk
  show V m c main_arg0 (((cfg0.win 0).blk t).view.emb (ix2 p k)) = _
  rw [V_main_arg0]
  refine congrArg _ (funext fun a => Fin.ext ?_)
  match a with
  | ⟨0, _⟩ => show win0_0.index t (0 : Fin 2) * 2000 + 1 * p.val = 2000 * (5 * t.val + 0) + p.val; omega
  | ⟨1, _⟩ => show win0_0.index t (1 : Fin 2) * 128 + 1 * k.val = k.val; omega

/-- Row window 1's block at point `t` holds rows `2000·(5t + 1) …` of the row matrix. -/
theorem xblk1 (c : Dev nD) (t : Fin cfg0.N) (p : Fin 2000) (k : Fin 128) :
    (iblk m c 1 t : Vec Ideal S2000x128 .f32) (ix2 p k)
      = (m ((c : Thread nD τ).loc main_arg0) : FVec Ideal Cert.Spec.SX .f32)
          (ix2 (⟨2000 * (5 * t.val + 1) + p.val, by have := t_lt t; have := p.isLt; omega⟩ : Fin 100000) k) := by
  obtain ⟨e00, e01, e10, e11, e20, e21, e30, e31, e40, e41, e50, e51, e60, e61, e70, e71⟩ := idx_facts t
  unfold iblk
  show V m c main_arg0 (((cfg0.win 1).blk t).view.emb (ix2 p k)) = _
  rw [V_main_arg0]
  refine congrArg _ (funext fun a => Fin.ext ?_)
  match a with
  | ⟨0, _⟩ => show win0_1.index t (0 : Fin 2) * 2000 + 1 * p.val = 2000 * (5 * t.val + 1) + p.val; omega
  | ⟨1, _⟩ => show win0_1.index t (1 : Fin 2) * 128 + 1 * k.val = k.val; omega

/-- Row window 2's block at point `t` holds rows `2000·(5t + 2) …` of the row matrix. -/
theorem xblk2 (c : Dev nD) (t : Fin cfg0.N) (p : Fin 2000) (k : Fin 128) :
    (iblk m c 2 t : Vec Ideal S2000x128 .f32) (ix2 p k)
      = (m ((c : Thread nD τ).loc main_arg0) : FVec Ideal Cert.Spec.SX .f32)
          (ix2 (⟨2000 * (5 * t.val + 2) + p.val, by have := t_lt t; have := p.isLt; omega⟩ : Fin 100000) k) := by
  obtain ⟨e00, e01, e10, e11, e20, e21, e30, e31, e40, e41, e50, e51, e60, e61, e70, e71⟩ := idx_facts t
  unfold iblk
  show V m c main_arg0 (((cfg0.win 2).blk t).view.emb (ix2 p k)) = _
  rw [V_main_arg0]
  refine congrArg _ (funext fun a => Fin.ext ?_)
  match a with
  | ⟨0, _⟩ => show win0_2.index t (0 : Fin 2) * 2000 + 1 * p.val = 2000 * (5 * t.val + 2) + p.val; omega
  | ⟨1, _⟩ => show win0_2.index t (1 : Fin 2) * 128 + 1 * k.val = k.val; omega

/-- Row window 3's block at point `t` holds rows `2000·(5t + 3) …` of the row matrix. -/
theorem xblk3 (c : Dev nD) (t : Fin cfg0.N) (p : Fin 2000) (k : Fin 128) :
    (iblk m c 3 t : Vec Ideal S2000x128 .f32) (ix2 p k)
      = (m ((c : Thread nD τ).loc main_arg0) : FVec Ideal Cert.Spec.SX .f32)
          (ix2 (⟨2000 * (5 * t.val + 3) + p.val, by have := t_lt t; have := p.isLt; omega⟩ : Fin 100000) k) := by
  obtain ⟨e00, e01, e10, e11, e20, e21, e30, e31, e40, e41, e50, e51, e60, e61, e70, e71⟩ := idx_facts t
  unfold iblk
  show V m c main_arg0 (((cfg0.win 3).blk t).view.emb (ix2 p k)) = _
  rw [V_main_arg0]
  refine congrArg _ (funext fun a => Fin.ext ?_)
  match a with
  | ⟨0, _⟩ => show win0_3.index t (0 : Fin 2) * 2000 + 1 * p.val = 2000 * (5 * t.val + 3) + p.val; omega
  | ⟨1, _⟩ => show win0_3.index t (1 : Fin 2) * 128 + 1 * k.val = k.val; omega

/-- Row window 4's block at point `t` holds rows `2000·(5t + 4) …` of the row matrix. -/
theorem xblk4 (c : Dev nD) (t : Fin cfg0.N) (p : Fin 2000) (k : Fin 128) :
    (iblk m c 4 t : Vec Ideal S2000x128 .f32) (ix2 p k)
      = (m ((c : Thread nD τ).loc main_arg0) : FVec Ideal Cert.Spec.SX .f32)
          (ix2 (⟨2000 * (5 * t.val + 4) + p.val, by have := t_lt t; have := p.isLt; omega⟩ : Fin 100000) k) := by
  obtain ⟨e00, e01, e10, e11, e20, e21, e30, e31, e40, e41, e50, e51, e60, e61, e70, e71⟩ := idx_facts t
  unfold iblk
  show V m c main_arg0 (((cfg0.win 4).blk t).view.emb (ix2 p k)) = _
  rw [V_main_arg0]
  refine congrArg _ (funext fun a => Fin.ext ?_)
  match a with
  | ⟨0, _⟩ => show win0_4.index t (0 : Fin 2) * 2000 + 1 * p.val = 2000 * (5 * t.val + 4) + p.val; omega
  | ⟨1, _⟩ => show win0_4.index t (1 : Fin 2) * 128 + 1 * k.val = k.val; omega

/-- The weight window's block is the transposed weight matrix. -/
theorem wblk (c : Dev nD) (t : Fin cfg0.N) (k : Fin 128) (q : Fin 40) :
    (iblk m c 5 t : Vec Ideal S128x40 .f32) (ix2 k q)
      = (m ((c : Thread nD τ).loc main_arg1) : FVec Ideal Cert.Spec.SW .f32) (ix2 q k) := by
  obtain ⟨e00, e01, e10, e11, e20, e21, e30, e31, e40, e41, e50, e51, e60, e61, e70, e71⟩ := idx_facts t
  unfold iblk
  show V m c main_v0 (((cfg0.win 5).blk t).view.emb (ix2 k q)) = _
  rw [V_main_v0]
  exact transpose_apply [1, 0] _ transposes_S40x128_S128x40_1_0 _ (ix2 q k) (fun b => match b with
    | ⟨0, _⟩ => by show k.val = win0_5.index t (0 : Fin 2) * 128 + 1 * k.val; omega
    | ⟨1, _⟩ => by show q.val = win0_5.index t (1 : Fin 2) * 40 + 1 * q.val; omega)

/-- The bias window's block is the bias, as a row. -/
theorem bblk (c : Dev nD) (t : Fin cfg0.N) (q : Fin 40) :
    (iblk m c 6 t : Vec Ideal S1x40 .f32) (ix2 (0 : Fin 1) q)
      = (m ((c : Thread nD τ).loc main_arg2) : FVec Ideal Cert.Spec.SB .f32) (ix1 q) := by
  obtain ⟨e00, e01, e10, e11, e20, e21, e30, e31, e40, e41, e50, e51, e60, e61, e70, e71⟩ := idx_facts t
  unfold iblk
  show V m c main_v1 (((cfg0.win 6).blk t).view.emb (ix2 (0 : Fin 1) q)) = _
  rw [V_main_v1]
  refine shapeCast_apply _ shapeCasts_S40_S1x40 _ (ix1 q) ?_
  rw [Shape.rowMajor_val_one, Shape.rowMajor_val_two]
  show q.val = (win0_6.index t (0 : Fin 2) * 1 + 1 * 0) * 40 + (win0_6.index t (1 : Fin 2) * 40 + 1 * q.val)
  omega

/-! ## What point `t` writes back -/

/-- The linear head of the three arguments as launched. -/
abbrev G (c : Dev nD) : S100000x40.Idx → EReal :=
  Cert.Spec.linear (m ((c : Thread nD τ).loc main_arg0)) (m ((c : Thread nD τ).loc main_arg1)) (m ((c : Thread nD τ).loc main_arg2))

/-- The body's store 0 at point `t` is the block of the linear head at rows `10000·t + 2000·0 …`. -/
theorem piece0 (c : Dev nD) (t : Fin cfg0.N) (x : S2000x40.Idx) :
    k0_pay3 (F := Ideal) (View.ld (iblk m c 0 t) rX) (View.ld (iblk m c 5 t) rW) (View.ld (iblk m c 6 t) rB) x
      = G m c (((cfg0.win 7).blk t).view.emb (rO0.emb x)) := by
  obtain ⟨e00, e01, e10, e11, e20, e21, e30, e31, e40, e41, e50, e51, e60, e61, e70, e71⟩ := idx_facts t
  have ht := t_lt t
  rw [View.ld_unit_zero (S := S2000x128) hz2, View.ld_unit_zero (S := S128x40) hz2, View.ld_unit_zero (S := S1x40) hz2]
  obtain ⟨p, q, rfl⟩ : ∃ (p : Fin 2000) (q : Fin 40), x = ix2 p q := ⟨x 0, x 1, eq_ix2 x⟩
  rw [pay_entry _ _ _ (iblk m c 0 t) (iblk m c 5 t) (iblk m c 6 t) (2000 * (5 * t.val + 0)) (by omega)
    (xblk0 m c t) (wblk m c t) (bblk m c t) p q]
  show Cert.Spec.entry _ _ _ _ _ = Cert.Spec.entry _ _ _ _ _
  have hp := p.isLt
  have hq := q.isLt
  congr 1 <;> apply Fin.ext
  · show 2000 * (5 * t.val + 0) + p.val = win0_7.index t (0 : Fin 2) * 10000 + 1 * (0 + 1 * p.val); omega
  · show q.val = win0_7.index t (1 : Fin 2) * 40 + 1 * (0 + 1 * q.val); omega

/-- The body's store 1 at point `t` is the block of the linear head at rows `10000·t + 2000·1 …`. -/
theorem piece1 (c : Dev nD) (t : Fin cfg0.N) (x : S2000x40.Idx) :
    k0_pay4 (F := Ideal) (View.ld (iblk m c 1 t) rX) (View.ld (iblk m c 5 t) rW) (View.ld (iblk m c 6 t) rB) x
      = G m c (((cfg0.win 7).blk t).view.emb (rO1.emb x)) := by
  obtain ⟨e00, e01, e10, e11, e20, e21, e30, e31, e40, e41, e50, e51, e60, e61, e70, e71⟩ := idx_facts t
  have ht := t_lt t
  rw [View.ld_unit_zero (S := S2000x128) hz2, View.ld_unit_zero (S := S128x40) hz2, View.ld_unit_zero (S := S1x40) hz2]
  obtain ⟨p, q, rfl⟩ : ∃ (p : Fin 2000) (q : Fin 40), x = ix2 p q := ⟨x 0, x 1, eq_ix2 x⟩
  rw [pay4_eq]
  rw [pay_entry _ _ _ (iblk m c 1 t) (iblk m c 5 t) (iblk m c 6 t) (2000 * (5 * t.val + 1)) (by omega)
    (xblk1 m c t) (wblk m c t) (bblk m c t) p q]
  show Cert.Spec.entry _ _ _ _ _ = Cert.Spec.entry _ _ _ _ _
  have hp := p.isLt
  have hq := q.isLt
  congr 1 <;> apply Fin.ext
  · show 2000 * (5 * t.val + 1) + p.val = win0_7.index t (0 : Fin 2) * 10000 + 1 * (2000 + 1 * p.val); omega
  · show q.val = win0_7.index t (1 : Fin 2) * 40 + 1 * (0 + 1 * q.val); omega

/-- The body's store 2 at point `t` is the block of the linear head at rows `10000·t + 2000·2 …`. -/
theorem piece2 (c : Dev nD) (t : Fin cfg0.N) (x : S2000x40.Idx) :
    k0_pay5 (F := Ideal) (View.ld (iblk m c 2 t) rX) (View.ld (iblk m c 5 t) rW) (View.ld (iblk m c 6 t) rB) x
      = G m c (((cfg0.win 7).blk t).view.emb (rO2.emb x)) := by
  obtain ⟨e00, e01, e10, e11, e20, e21, e30, e31, e40, e41, e50, e51, e60, e61, e70, e71⟩ := idx_facts t
  have ht := t_lt t
  rw [View.ld_unit_zero (S := S2000x128) hz2, View.ld_unit_zero (S := S128x40) hz2, View.ld_unit_zero (S := S1x40) hz2]
  obtain ⟨p, q, rfl⟩ : ∃ (p : Fin 2000) (q : Fin 40), x = ix2 p q := ⟨x 0, x 1, eq_ix2 x⟩
  rw [pay5_eq]
  rw [pay_entry _ _ _ (iblk m c 2 t) (iblk m c 5 t) (iblk m c 6 t) (2000 * (5 * t.val + 2)) (by omega)
    (xblk2 m c t) (wblk m c t) (bblk m c t) p q]
  show Cert.Spec.entry _ _ _ _ _ = Cert.Spec.entry _ _ _ _ _
  have hp := p.isLt
  have hq := q.isLt
  congr 1 <;> apply Fin.ext
  · show 2000 * (5 * t.val + 2) + p.val = win0_7.index t (0 : Fin 2) * 10000 + 1 * (4000 + 1 * p.val); omega
  · show q.val = win0_7.index t (1 : Fin 2) * 40 + 1 * (0 + 1 * q.val); omega

/-- The body's store 3 at point `t` is the block of the linear head at rows `10000·t + 2000·3 …`. -/
theorem piece3 (c : Dev nD) (t : Fin cfg0.N) (x : S2000x40.Idx) :
    k0_pay1 (F := Ideal) (View.ld (iblk m c 3 t) rX) (View.ld (iblk m c 5 t) rW) (View.ld (iblk m c 6 t) rB) x
      = G m c (((cfg0.win 7).blk t).view.emb (rO3.emb x)) := by
  obtain ⟨e00, e01, e10, e11, e20, e21, e30, e31, e40, e41, e50, e51, e60, e61, e70, e71⟩ := idx_facts t
  have ht := t_lt t
  rw [View.ld_unit_zero (S := S2000x128) hz2, View.ld_unit_zero (S := S128x40) hz2, View.ld_unit_zero (S := S1x40) hz2]
  obtain ⟨p, q, rfl⟩ : ∃ (p : Fin 2000) (q : Fin 40), x = ix2 p q := ⟨x 0, x 1, eq_ix2 x⟩
  rw [pay1_eq]
  rw [pay_entry _ _ _ (iblk m c 3 t) (iblk m c 5 t) (iblk m c 6 t) (2000 * (5 * t.val + 3)) (by omega)
    (xblk3 m c t) (wblk m c t) (bblk m c t) p q]
  show Cert.Spec.entry _ _ _ _ _ = Cert.Spec.entry _ _ _ _ _
  have hp := p.isLt
  have hq := q.isLt
  congr 1 <;> apply Fin.ext
  · show 2000 * (5 * t.val + 3) + p.val = win0_7.index t (0 : Fin 2) * 10000 + 1 * (6000 + 1 * p.val); omega
  · show q.val = win0_7.index t (1 : Fin 2) * 40 + 1 * (0 + 1 * q.val); omega

/-- The body's store 4 at point `t` is the block of the linear head at rows `10000·t + 2000·4 …`. -/
theorem piece4 (c : Dev nD) (t : Fin cfg0.N) (x : S2000x40.Idx) :
    k0_pay2 (F := Ideal) (View.ld (iblk m c 4 t) rX) (View.ld (iblk m c 5 t) rW) (View.ld (iblk m c 6 t) rB) x
      = G m c (((cfg0.win 7).blk t).view.emb (rO4.emb x)) := by
  obtain ⟨e00, e01, e10, e11, e20, e21, e30, e31, e40, e41, e50, e51, e60, e61, e70, e71⟩ := idx_facts t
  have ht := t_lt t
  rw [View.ld_unit_zero (S := S2000x128) hz2, View.ld_unit_zero (S := S128x40) hz2, View.ld_unit_zero (S := S1x40) hz2]
  obtain ⟨p, q, rfl⟩ : ∃ (p : Fin 2000) (q : Fin 40), x = ix2 p q := ⟨x 0, x 1, eq_ix2 x⟩
  rw [pay2_eq]
  rw [pay_entry _ _ _ (iblk m c 4 t) (iblk m c 5 t) (iblk m c 6 t) (2000 * (5 * t.val + 4)) (by omega)
    (xblk4 m c t) (wblk m c t) (bblk m c t) p q]
  show Cert.Spec.entry _ _ _ _ _ = Cert.Spec.entry _ _ _ _ _
  have hp := p.isLt
  have hq := q.isLt
  congr 1 <;> apply Fin.ext
  · show 2000 * (5 * t.val + 4) + p.val = win0_7.index t (0 : Fin 2) * 10000 + 1 * (8000 + 1 * p.val); omega
  · show q.val = win0_7.index t (1 : Fin 2) * 40 + 1 * (0 + 1 * q.val); omega

/-- What point `t` writes back is block `t` of the linear head. -/
theorem flushed7_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after_7]
  funext y
  show outBlock (iblk m c 0 t) (iblk m c 1 t) (iblk m c 2 t) (iblk m c 3 t) (iblk m c 4 t) (iblk m c 5 t) (iblk m c 6 t) y
    = G m c (((cfg0.win 7).blk t).view.emb y)
  unfold outBlock
  refine View.canon_apply_of_pieces (Val := Elt Ideal) (fun y => (G m c (((cfg0.win 7).blk t).view.emb y) : Elt Ideal .f32)) _ ?_ y (cover_out _ _ _ _ _ y)
  intro pc hpc x
  simp only [List.mem_cons, List.mem_singleton, List.not_mem_nil, or_false] at hpc
  rcases hpc with rfl | rfl | rfl | rfl | rfl
  · exact piece4 m c t x
  · exact piece3 m c t x
  · exact piece2 m c t x
  · exact piece1 m c t x
  · exact piece0 m c t x

/-! ## The ten blocks tile the result -/

theorem mem_blk7 (t : Fin cfg0.N) (i : S100000x40.Idx) :
    i ∈ ((cfg0.win 7).blk t).view.set ↔ ∀ a : Fin 2, win0_7.index t a * S10000x40.size a ≤ (i a).val ∧ (i a).val < win0_7.index t a * S10000x40.size a + S10000x40.size a := by
  show i ∈ ((View.whole main_v2).slice (win0_7.rect t)).set ↔ _
  rw [View.set_slice_whole, Rect.mem_set_unit]
  exact Iff.rfl

theorem idx_onto7 : ∀ q0 : Fin 10, ∃ t : Fin cfg0.N, win0_7.index t = ![q0.val, 0] :=
  (by decide +kernel : ∀ q0 : Fin 10, ∃ t : Fin grid0.N, win0_7.index t = ![q0.val, 0])

/-- Row `r` of the result is in the block of point `r / 10000`. -/
theorem cover7 (i : S100000x40.Idx) : ∃ t : Fin cfg0.N, (cfg0.win 7).flush t = true ∧ i ∈ ((cfg0.win 7).blk t).view.set := by
  have hi0 : (i 0).val < 100000 := (i 0).isLt
  have hi1 : (i 1).val < 40 := (i 1).isLt
  obtain ⟨t, ht⟩ := idx_onto7 ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 40 ≤ (i 1).val ∧ (i 1).val < win0_7.index t (1 : Fin 2) * 40 + 40; omega

/-- The result array after the run is the linear head of the arguments as launched. -/
theorem final7 (c : Dev nD) : (dats m 0 c).arrAt 7 cfg0.N = G m c :=
  (dats m 0 c).arrAt_eq_of_cover 7 (G m c) (fun t _ => flushed7_eq m c t) cover7

/-! ## The run, read -/

/-- Every weakly fair execution of the kernel's program ends with the result array at the linear head of the arguments and
    the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final7 m c), (h c).2⟩) (run_blocks m ρ)

end Cert.KernelIdeal.HandValue

end
-- ==== Proof.RefValue.lean ====
import proofs.«118289_g25323127177384_cont_9to1_2235_8_alg».proof.Proof.Gen.ReferenceIdeal.Read
import proofs.«118289_g25323127177384_cont_9to1_2235_8_alg».proof.Proof.Spec

/-!
  The reference computes the linear head: its product of `x` with the transposed weights, read at (r, c), is the sum
  over k of x(r, k) · W(c, k), and the bias, broadcast first to a row and then down the rows, is b(c) there.
-/

open scoped BigOperators

noncomputable section

namespace Cert.ReferenceIdeal.RefValue

open Cert.ReferenceIdeal Cert.ReferenceIdeal.Gen Cert.ReferenceIdeal.Read
open Idealize.ShloMosaic Idealize.ShloMosaic.ValueIdx

theorem lidx_eq (i : S100000x40.Idx) (k : Fin 128) :
    lidx_main_v1 i k = ix2 (⟨(i 0).val, (i 0).isLt⟩ : Fin 100000) k :=
  funext fun a => Fin.ext (by match a with | ⟨0, _⟩ => rfl | ⟨1, _⟩ => rfl)

theorem ridx_eq (i : S100000x40.Idx) (k : Fin 128) :
    idx_main_v0 (ridx_main_v1 i k) = ix2 (⟨(i 1).val, (i 1).isLt⟩ : Fin 40) k :=
  funext fun a => Fin.ext (by match a with | ⟨0, _⟩ => rfl | ⟨1, _⟩ => rfl)

theorem bidx_eq (i : S100000x40.Idx) :
    idx_main_v2 (idx_main_v3 i) = ix1 (⟨(i 1).val, (i 1).isLt⟩ : Fin 40) :=
  funext fun a => Fin.ext (by match a with | ⟨0, _⟩ => rfl)

/-- The reference's result is the linear head of its arguments. -/
theorem ref_eq (x0 : (⟨S100000x128, .f32⟩ : BufTy).Contents (Elt Ideal)) (x1 : (⟨S40x128, .f32⟩ : BufTy).Contents (Elt Ideal))
    (x2 : (⟨S40, .f32⟩ : BufTy).Contents (Elt Ideal)) :
    val_main_v4 (F := Ideal) x0 x1 x2 = Cert.Spec.linear x0 x1 x2 := by
  funext i
  rw [val_main_v4_apply, val_main_v1_apply, val_main_v3_apply, val_main_v2_apply]
  simp only [val_main_v0_apply, lidx_eq, ridx_eq, bidx_eq, Ideal.addf_def]
  rfl

end Cert.ReferenceIdeal.RefValue

end
-- ==== Proof.lean ====
/-
  The linear head `x · Wᵀ + b` (x : 100000 × 128, W : 40 × 128, b : 40), computed by a kernel that streams the rows of
  `x` through five input windows and multiplies 2000-row blocks with the transposed weights, against the host's one
  matrix product.

  The three programs run to the end and leave their arguments unchanged. For the two kernel programs this is the
  pipeline's launch rule for input windows that share one array (the row matrix is read through five windows, each
  holding a piece of its share), with the body run once at a symbolic grid point; for the reference it is its run,
  one host operation after the other. The idealization rewrote nothing, so `preserves` has nothing to state. Over the
  extended reals both idealized programs end with the result at ONE function of the arguments, entry (r, c) being
  `Σ_k x(r, k) · W(c, k) + b(c)`: the kernel's ten output blocks are blocks of that function and tile the array; the
  reference's product with the transposed weights and its broadcast bias read the same. No law of the extended reals
  beyond reading both sums over the same index is used, so the precondition is never opened.
-/
import proofs.«118289_g25323127177384_cont_9to1_2235_8_alg».proof.Defs
import proofs.«118289_g25323127177384_cont_9to1_2235_8_alg».proof.Proof.Gen.Kernel
import proofs.«118289_g25323127177384_cont_9to1_2235_8_alg».proof.Proof.Gen.KernelIdeal
import proofs.«118289_g25323127177384_cont_9to1_2235_8_alg».proof.Proof.Gen.ReferenceIdeal
import proofs.«118289_g25323127177384_cont_9to1_2235_8_alg».proof.Proof.Gen.Pre_finite_inputs
import proofs.«118289_g25323127177384_cont_9to1_2235_8_alg».proof.Proof.Gen.ReferenceIdeal.Run
import proofs.«118289_g25323127177384_cont_9to1_2235_8_alg».proof.Proof.Gen.ReferenceIdeal.Read
import proofs.«118289_g25323127177384_cont_9to1_2235_8_alg».proof.Proof.KernelRun
import proofs.«118289_g25323127177384_cont_9to1_2235_8_alg».proof.Proof.KernelIdealValue
import proofs.«118289_g25323127177384_cont_9to1_2235_8_alg».proof.Proof.RefValue

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the linear head of the (agreeing) arguments. -/
theorem algebraic : Cert.algebraic_KernelIdeal_ReferenceIdeal := by
  intro m ρ m' ρ' _ hagree
  refine ⟨fun c => Cert.KernelIdeal.HandValue.G m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.ReferenceIdeal.RefValue.ref_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
